-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S64x128 .f32) (main_arg3 : FVec F S64 .f32) (main_arg4 : FVec F S1x64 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S128x64 : Shape := ⟨2, ![128, 64]⟩
abbrev S1700000x64 : Shape := ⟨2, ![1700000, 64]⟩
abbrev S100000x1 : Shape := ⟨2, ![100000, 1]⟩
abbrev S10000x1 : Shape := ⟨2, ![10000, 1]⟩
abbrev S64x1 : Shape := ⟨2, ![64, 1]⟩
abbrev S1x1 : Shape := ⟨2, ![1, 1]⟩

abbrev nBuf : Space → Nat
  | .hbm => 78
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x1, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x1, .f32⟩
  | .hbm, ⟨68, _⟩ => ⟨S1700000x1, .f32⟩
  | .hbm, ⟨69, _⟩ => ⟨S1700000x1, .f32⟩
  | .hbm, ⟨70, _⟩ => ⟨S_, .f32⟩
  | .hbm, ⟨71, _⟩ => ⟨S100000x1, .f32⟩
  | .hbm, ⟨72, _⟩ => ⟨S1700000x1, .i32⟩
  | .hbm, ⟨73, _⟩ => ⟨S100000x1, .f32⟩
  | .hbm, ⟨74, _⟩ => ⟨S1x1, .f32⟩
  | .hbm, ⟨75, _⟩ => ⟨S100000x1, .f32⟩
  | .hbm, ⟨76, _⟩ => ⟨S100000x1, .f32⟩
  | .hbm, ⟨77, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S10000x1, .f32⟩
  | .local _ .vmem, ⟨14, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S1x64_p1_0_S64x1 : S1x64.Transposes [1, 0] S64x1
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S100000x64 : Shape := ⟨2, ![100000, 64]⟩
abbrev S1700000x64 : Shape := ⟨2, ![1700000, 64]⟩
abbrev S64x1 : Shape := ⟨2, ![64, 1]⟩
abbrev S100000x1 : Shape := ⟨2, ![100000, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S128x64, .f32⟩
  | .hbm, ⟨21, _⟩ => ⟨S100000x64, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x1, .f32⟩
  | .hbm, ⟨51, _⟩ => ⟨S1700000x64, .f32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S64x1, .f32⟩
  | .hbm, ⟨64, _⟩ => ⟨S100000x1, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000, .f32⟩
  | .hbm, ⟨83, _⟩ => ⟨S1700000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x1, .f32⟩
  | .hbm, ⟨93, _⟩ => ⟨S1700000x1, .f32⟩
  | .hbm, ⟨94, _⟩ => ⟨S1700000x1, .f32⟩
  | .hbm, ⟨95, _⟩ => ⟨S_, .f32⟩
  | .hbm, ⟨96, _⟩ => ⟨S100000x1, .f32⟩
  | .hbm, ⟨97, _⟩ => ⟨S1700000x1, .i32⟩
  | .hbm, ⟨98, _⟩ => ⟨S100000x1, .f32⟩
  | .hbm, ⟨99, _⟩ => ⟨S1x1, .f32⟩
  | .hbm, ⟨100, _⟩ => ⟨S100000x1, .f32⟩
  | .hbm, ⟨101, _⟩ => ⟨S100000x1, .f32⟩
  | .hbm, ⟨102, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_13 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Spec.lean ====
/-
  The two dense layers of the graph network, as functions of whole arrays over the extended reals.

  `lin X W` is the product of `X` with the transpose of `W`: entry (r, c) is the sum over k of X (r, k) · W (c, k).
  `act A b` adds the bias `b` along every row of `A` and takes the maximum with zero.

  A matrix product accumulated into zeros from operands narrowed to bf16 (a change of format is the identity on
  the extended reals), with the right operand transposed in registers, is `lin`; so is the host's product with a
  transposed right operand. A sum in the extended reals does not depend on the order of its terms, so neither
  depends on how the rows are tiled.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Gcn

open Idealize.ShloMosaic Idealize.ShloMosaic.ValueIdx

/-- `X · Wᵀ`: entry (r, c) is `∑ k, X (r, k) * W (c, k)`. -/
def lin {M K N : ℕ} (X : FVec Ideal ⟨2, ![M, K]⟩ .f32) (W : FVec Ideal ⟨2, ![N, K]⟩ .f32) : FVec Ideal ⟨2, ![M, N]⟩ .f32 :=
  fun i => ∑ k : Fin K, X (ix2 (i 0) k) * W (ix2 (i 1) k)

theorem lin_apply {M K N : ℕ} (X : FVec Ideal ⟨2, ![M, K]⟩ .f32) (W : FVec Ideal ⟨2, ![N, K]⟩ .f32) (r : Fin M) (c : Fin N) :
    lin X W (ix2 r c) = ∑ k : Fin K, X (ix2 r k) * W (ix2 c k) := rfl

/-- The host's product of `X` with the transposed `W` is `lin X W`. -/
theorem host_lin {M K N : ℕ} (prec : Option ContractPrecision) (X : FVec Ideal ⟨2, ![M, K]⟩ .f32) (W : FVec Ideal ⟨2, ![N, K]⟩ .f32)
    (h : (⟨2, ![N, K]⟩ : Shape).Transposes [1, 0] ⟨2, ![K, N]⟩) :
    Host.dotGeneral (DotDims.plain M K N) prec X (transpose ⟨2, ![K, N]⟩ [1, 0] W h) = lin X W := by
  funext i
  obtain ⟨r, c, rfl⟩ : ∃ (r : Fin M) (c : Fin N), i = ix2 r c := ⟨i 0, i 1, eq_ix2 i⟩
  rw [StackMember.dotGeneral_plain_apply, lin_apply]
  refine Finset.sum_congr rfl fun k _ => ?_
  rw [transpose_ix2_apply]

/-- The kernel's product — both operands narrowed to bf16, the right one transposed, accumulated into zeros — is `lin`. -/
theorem kernel_lin {M K N : ℕ} (prec : Option ContractPrecision) (X : FVec Ideal ⟨2, ![M, K]⟩ .f32) (W : FVec Ideal ⟨2, ![N, K]⟩ .f32)
    (hb : FTy.bf16.bits < FTy.f32.bits) (h : (⟨2, ![N, K]⟩ : Shape).Transposes [1, 0] ⟨2, ![K, N]⟩) :
    matmul (DotDims.plain M K N) prec (truncf .bf16 X hb) (transpose ⟨2, ![K, N]⟩ [1, 0] (truncf .bf16 W hb) h)
        (constant ⟨2, ![M, N]⟩ .f32 0x00000000#32) = lin X W :=
  (matmul_zero_eq_dotGeneral _ _ _ _).trans (host_lin prec X W h)

/-- Bias along the rows, then the maximum with zero. -/
def act {M N : ℕ} (A : FVec Ideal ⟨2, ![M, N]⟩ .f32) (b : FVec Ideal ⟨1, ![N]⟩ .f32) : FVec Ideal ⟨2, ![M, N]⟩ .f32 :=
  fun i => max (A i + b (ix1 (i 1))) 0

theorem act_apply {M N : ℕ} (A : FVec Ideal ⟨2, ![M, N]⟩ .f32) (b : FVec Ideal ⟨1, ![N]⟩ .f32) (r : Fin M) (c : Fin N) :
    act A b (ix2 r c) = max (A (ix2 r c) + b (ix1 c)) 0 := rfl

/-- The host's form: the bias broadcast to one row, the row to every row, added; the maximum with a broadcast zero. -/
theorem host_act {M N : ℕ} (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf A (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) = act A b := by
  funext i
  obtain ⟨r, c, rfl⟩ : ∃ (r : Fin M) (c : Fin N), i = ix2 r c := ⟨i 0, i 1, eq_ix2 i⟩
  have hc : c.val < N := c.isLt
  have e1 : broadcastInDim ⟨2, ![M, N]⟩ ![0, 1] h2 (broadcastInDim ⟨2, ![1, N]⟩ ![1] h1 b) (ix2 r c) = b (ix1 c) := by
    refine (broadcastInDim_apply ![0, 1] h2 _ (ix2 r c) (ix2 (0 : Fin 1) c) (fun a => ?_)).trans ?_
    · match a with
      | ⟨0, _⟩ => simp
      | ⟨1, _⟩ => show c.val = if N = 1 then 0 else c.val; split_ifs <;> omega
    · refine broadcastInDim_apply ![1] h1 b (ix2 (0 : Fin 1) c) (ix1 c) (fun a => ?_)
      match a with
      | ⟨0, _⟩ => show c.val = if N = 1 then 0 else c.val; split_ifs <;> omega
  have e0 : broadcastInDim ⟨2, ![M, N]⟩ ![] h0 (constant (F := Ideal) ⟨0, ![]⟩ .f32 0x00000000#32) (ix2 r c) = 0 :=
    (broadcastInDim_apply (s := ⟨0, ![]⟩) ![] h0 _ (ix2 r c) (fun a => a.elim0) (fun a => a.elim0)).trans Ideal.ofBits_zero_f32
  show max (A (ix2 r c) + _) _ = _
  rw [e1, e0, act_apply]

/-- The kernel's form: the bias as a one-row block, broadcast down the rows, added; the maximum with a splat zero. -/
theorem kernel_act {M N : ℕ} (A : FVec Ideal ⟨2, ![M, N]⟩ .f32) (brow : FVec Ideal ⟨2, ![1, N]⟩ .f32)
    (hA : (⟨2, ![M, N]⟩ : Shape).ShapeCasts ⟨2, ![M, N]⟩) (hr : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ A hA) (broadcastTo ⟨2, ![M, N]⟩ (shapeCast ⟨2, ![1, N]⟩ brow hr) hb))
        (broadcast ⟨2, ![M, N]⟩ (Scalar.ofBits (F := Ideal) .f32 0x00000000#32)) = act A (fun j => brow (ix2 (0 : Fin 1) (j 0))) := by
  funext i
  obtain ⟨r, c, rfl⟩ : ∃ (r : Fin M) (c : Fin N), i = ix2 r c := ⟨i 0, i 1, eq_ix2 i⟩
  have hc : c.val < N := c.isLt
  rw [shapeCast_self, shapeCast_self]
  have e1 : broadcastTo ⟨2, ![M, N]⟩ brow hb (ix2 r c) = brow (ix2 (0 : Fin 1) c) := by
    refine broadcastTo_apply brow hb (ix2 r c) (ix2 (0 : Fin 1) c) (fun a => ?_)
    match a with
    | ⟨0, _⟩ => simp
    | ⟨1, _⟩ => show c.val = if N = 1 then 0 else c.val; split_ifs <;> omega
  show max (A (ix2 r c) + _) (Ideal.ofBits .f32 0x00000000#32) = _
  rw [e1, Ideal.ofBits_zero_f32, act_apply]
  rfl

end Cert.Gcn

end
-- ==== Proof.Region0.lean ====
/-
  The first dense layer's pallas_call, read as a value: whatever the arrays hold when the region is entered, its
  output array ends holding `lin X W` of the two input arrays. Point `t` of the grid of ten stages rows
  `10000 t … 10000 t + 9999` of `X` and all of `W`, multiplies them, and writes rows `10000 t …` of the output back;
  the ten row blocks tile the 100000 rows.
-/
import proofs.«182090_j36541581754948_1_alg».proof.Proof.Gen.KernelIdeal.Frame
import proofs.«182090_j36541581754948_1_alg».proof.Proof.Spec
import Idealize.ShloMosaic.Lib.Pipeline.Value

set_option maxRecDepth 16384

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload is the product of the row block with the transposed weights. -/
theorem pay (a : Vec Ideal S10000x128 .f32) (w : Vec Ideal S64x128 .f32) :
    k0_pay1 a w = lin (M := 10000) (K := 128) (N := 64) a w := by
  unfold k0_pay1
  exact kernel_lin none a w _ _

/-- The windows' block indices over the grid: the rows move with the point, the weights stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array of input window 0 and of input window 1, at their literal types. -/
abbrev X (c : Dev nD) : FVec Ideal ⟨2, ![100000, 128]⟩ .f32 := V c main_arg0
abbrev W (c : Dev nD) : FVec Ideal ⟨2, ![64, 128]⟩ .f32 := V c main_arg2

/-- Row `p` of point `t`'s block of the first input is row `10000 t + p` of its array. -/
theorem blk_X (c : Dev nD) (t : Fin cfg0.N) (p : Fin 10000) (k : Fin 128) (r : Fin 100000) (hr : r.val = t.val * 10000 + p.val) :
    (iblk0 V c 0 t : Vec Ideal S10000x128 .f32) (ix2 p k) = X V c (ix2 r k) := by
  obtain ⟨e0, e1, -⟩ := idx t
  unfold iblk0
  rw [View.read_apply]
  show V c main_arg0 _ = V c main_arg0 _
  congr 1
  funext a
  apply Fin.ext
  match a with
  | ⟨0, _⟩ => show win0_0.index t 0 * 10000 + 1 * p.val = r.val; rw [e0, hr]; omega
  | ⟨1, _⟩ => show win0_0.index t 1 * 128 + 1 * k.val = k.val; rw [e1]; omega

/-- Every point's block of the second input is the whole array. -/
theorem blk_W (c : Dev nD) (t : Fin cfg0.N) (q : Fin 64) (k : Fin 128) :
    (iblk0 V c 1 t : Vec Ideal S64x128 .f32) (ix2 q k) = W V c (ix2 q k) := by
  obtain ⟨-, -, e0, e1, -⟩ := idx t
  unfold iblk0
  rw [View.read_apply]
  show V c main_arg2 _ = V c main_arg2 _
  congr 1
  funext a
  apply Fin.ext
  match a with
  | ⟨0, _⟩ => show win0_1.index t 0 * 64 + 1 * q.val = q.val; rw [e0]; omega
  | ⟨1, _⟩ => show win0_1.index t 1 * 128 + 1 * k.val = k.val; rw [e1]; omega

/-- Entry `(p, q)` of point `t`'s output block sits at row `10000 t + p`, column `q` of the output array. -/
theorem emb_out (t : Fin cfg0.N) (p : Fin 10000) (q : Fin 64) (r : Fin 100000) (hr : r.val = t.val * 10000 + p.val) :
    ((cfg0.win 2).blk t).view.emb (ix2 p q) = (ix2 r q : (⟨2, ![100000, 64]⟩ : Shape).Idx) := by
  obtain ⟨-, -, -, -, e0, e1⟩ := idx t
  funext a
  apply Fin.ext
  match a with
  | ⟨0, _⟩ => show win0_2.index t 0 * 10000 + 1 * p.val = r.val; rw [e0, hr]; omega
  | ⟨1, _⟩ => show win0_2.index t 1 * 64 + 1 * q.val = q.val; rw [e1]; omega

/-- What point `t` writes back is block `t` of `lin X W`. -/
theorem flushed (c : Dev nD) (t : Fin cfg0.N) :
    (dat0 V c).flushed 2 t = ((cfg0.win 2).blk t).view.read (Elt Ideal) (lin (X V c) (W V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S64x128) hz]
  rw [pay]
  funext j
  obtain ⟨p, q, rfl⟩ : ∃ (p : Fin 10000) (q : Fin 64), j = ix2 p q := ⟨j 0, j 1, eq_ix2 j⟩
  have ht : t.val < 10 := lt_of_lt_of_eq t.isLt N_0
  have hp : p.val < 10000 := p.isLt
  show lin (M := 10000) (K := 128) (N := 64) (iblk0 V c 0 t) (iblk0 V c 1 t) (ix2 p q) = lin (X V c) (W V c) (((cfg0.win 2).blk t).view.emb (ix2 p q))
  rw [emb_out t p q ⟨t.val * 10000 + p.val, by omega⟩ rfl, lin_apply, lin_apply]
  refine Finset.sum_congr rfl fun k _ => ?_
  rw [blk_X V c t p k ⟨t.val * 10000 + p.val, by omega⟩ rfl, blk_W V c t q k]

/-- The ten row blocks tile the output array. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := lt_of_lt_of_eq (show (i 0).val / 10000 < 10 by omega) N_0.symm
  obtain ⟨t, ht⟩ : ∃ t : Fin cfg0.N, t.val = (i 0).val / 10000 := ⟨⟨_, hN⟩, rfl⟩
  refine ⟨t, flush0_2 t, ?_⟩
  show i ∈ ((View.whole main_v27).slice (win0_2.rect t)).set
  rw [View.set_slice_whole, Rect.mem_set_unit]
  obtain ⟨-, -, -, -, e0, e1⟩ := idx t
  intro a
  match a with
  | ⟨0, _⟩ => show win0_2.index t 0 * 10000 ≤ (i 0).val ∧ (i 0).val < win0_2.index t 0 * 10000 + 10000; rw [e0, ht]; omega
  | ⟨1, _⟩ => show win0_2.index t 1 * 64 ≤ (i 1).val ∧ (i 1).val < win0_2.index t 1 * 64 + 64; rw [e1]; omega

/-- The output array after the region is `lin X W` of the input arrays as the region found them. -/
theorem final (c : Dev nD) : (dat0 V c).arrAt 2 cfg0.N = lin (X V c) (W V c) :=
  (dat0 V c).arrAt_eq_of_cover 2 (lin (X V c) (W V c)) (fun t _ => flushed V c t) (cover c)

end Cert.KernelIdeal.Region0

end
-- ==== Proof.Region1.lean ====
/-
  The bias-and-maximum pallas_call, read as a value: whatever the arrays hold when the region is entered, its
  output array ends holding `act A b`, where `A` is the first input array and `b` the one row of the second.
  Point `t` of the grid of ten stages rows `10000 t … 10000 t + 9999` of `A` and the bias row, adds the row to every
  staged row, takes the maximum with zero and writes the rows back in place; the ten row blocks tile the array.
-/
import proofs.«182090_j36541581754948_1_alg».proof.Proof.Gen.KernelIdeal.Frame
import proofs.«182090_j36541581754948_1_alg».proof.Proof.Spec
import Idealize.ShloMosaic.Lib.Pipeline.Value

set_option maxRecDepth 16384

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The one row of a one-row matrix, as a vector. -/
abbrev rowOf (brow : FVec Ideal ⟨2, ![1, 64]⟩ .f32) : FVec Ideal ⟨1, ![64]⟩ .f32 := fun j => brow (ix2 (0 : Fin 1) (j 0))

/-- The body's payload: the bias row added to every staged row, the maximum with zero. -/
theorem pay (a : Vec Ideal S10000x64 .f32) (brow : Vec Ideal S1x64 .f32) :
    k1_pay1 a brow = act (M := 10000) (N := 64) a (rowOf brow) := by
  unfold k1_pay1
  exact kernel_act a brow _ _ _

/-- The windows' block indices over the grid: the rows move with the point, the bias row stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The arrays of the two input windows, at their literal types. -/
abbrev A (c : Dev nD) : FVec Ideal ⟨2, ![100000, 64]⟩ .f32 := V c main_v40
abbrev B (c : Dev nD) : FVec Ideal ⟨2, ![1, 64]⟩ .f32 := V c main_v41

/-- Row `p` of point `t`'s block of the first input is row `10000 t + p` of its array. -/
theorem blk_A (c : Dev nD) (t : Fin cfg1.N) (p : Fin 10000) (q : Fin 64) (r : Fin 100000) (hr : r.val = t.val * 10000 + p.val) :
    (iblk1 V c 0 t : Vec Ideal S10000x64 .f32) (ix2 p q) = A V c (ix2 r q) := by
  obtain ⟨e0, e1, -⟩ := idx t
  unfold iblk1
  rw [View.read_apply]
  show V c main_v40 _ = V c main_v40 _
  congr 1
  funext a
  apply Fin.ext
  match a with
  | ⟨0, _⟩ => show win1_0.index t 0 * 10000 + 1 * p.val = r.val; rw [e0, hr]; omega
  | ⟨1, _⟩ => show win1_0.index t 1 * 64 + 1 * q.val = q.val; rw [e1]; omega

/-- Every point's block of the second input is the whole one-row array. -/
theorem blk_B (c : Dev nD) (t : Fin cfg1.N) (q : Fin 64) :
    (iblk1 V c 1 t : Vec Ideal S1x64 .f32) (ix2 (0 : Fin 1) q) = B V c (ix2 (0 : Fin 1) q) := by
  obtain ⟨-, -, e0, e1, -⟩ := idx t
  unfold iblk1
  rw [View.read_apply]
  show V c main_v41 _ = V c main_v41 _
  congr 1
  funext a
  apply Fin.ext
  match a with
  | ⟨0, _⟩ => show win1_1.index t 0 * 1 + 1 * 0 = 0; rw [e0]
  | ⟨1, _⟩ => show win1_1.index t 1 * 64 + 1 * q.val = q.val; rw [e1]; omega

/-- Entry `(p, q)` of point `t`'s output block sits at row `10000 t + p`, column `q` of the output array. -/
theorem emb_out (t : Fin cfg1.N) (p : Fin 10000) (q : Fin 64) (r : Fin 100000) (hr : r.val = t.val * 10000 + p.val) :
    ((cfg1.win 2).blk t).view.emb (ix2 p q) = (ix2 r q : (⟨2, ![100000, 64]⟩ : Shape).Idx) := by
  obtain ⟨-, -, -, -, e0, e1⟩ := idx t
  funext a
  apply Fin.ext
  match a with
  | ⟨0, _⟩ => show win1_2.index t 0 * 10000 + 1 * p.val = r.val; rw [e0, hr]; omega
  | ⟨1, _⟩ => show win1_2.index t 1 * 64 + 1 * q.val = q.val; rw [e1]; omega

/-- What point `t` writes back is block `t` of `act A b`. -/
theorem flushed (c : Dev nD) (t : Fin cfg1.N) :
    (dat1 V c).flushed 2 t = ((cfg1.win 2).blk t).view.read (Elt Ideal) (act (A V c) (rowOf (B V c))) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  rw [pay]
  funext j
  obtain ⟨p, q, rfl⟩ : ∃ (p : Fin 10000) (q : Fin 64), j = ix2 p q := ⟨j 0, j 1, eq_ix2 j⟩
  have ht : t.val < 10 := lt_of_lt_of_eq t.isLt N_1
  have hp : p.val < 10000 := p.isLt
  show act (M := 10000) (N := 64) (iblk1 V c 0 t) (rowOf (iblk1 V c 1 t)) (ix2 p q) = act (A V c) (rowOf (B V c)) (((cfg1.win 2).blk t).view.emb (ix2 p q))
  rw [emb_out t p q ⟨t.val * 10000 + p.val, by omega⟩ rfl, act_apply, act_apply]
  rw [blk_A V c t p q ⟨t.val * 10000 + p.val, by omega⟩ rfl]
  show max (_ + iblk1 V c 1 t (ix2 (0 : Fin 1) q)) 0 = max (_ + B V c (ix2 (0 : Fin 1) q)) 0
  rw [blk_B V c t q]

/-- The ten row blocks tile the output array. -/
theorem cover (c : Dev nD) (i : ((cfg1.win 2).arr.view.loc (c.tc : Thread nD τ)).2.ty.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := lt_of_lt_of_eq (show (i 0).val / 10000 < 10 by omega) N_1.symm
  obtain ⟨t, ht⟩ : ∃ t : Fin cfg1.N, t.val = (i 0).val / 10000 := ⟨⟨_, hN⟩, rfl⟩
  refine ⟨t, flush1_2 t, ?_⟩
  show i ∈ ((View.whole main_v42).slice (win1_2.rect t)).set
  rw [View.set_slice_whole, Rect.mem_set_unit]
  obtain ⟨-, -, -, -, e0, e1⟩ := idx t
  intro a
  match a with
  | ⟨0, _⟩ => show win1_2.index t 0 * 10000 ≤ (i 0).val ∧ (i 0).val < win1_2.index t 0 * 10000 + 10000; rw [e0, ht]; omega
  | ⟨1, _⟩ => show win1_2.index t 1 * 64 ≤ (i 1).val ∧ (i 1).val < win1_2.index t 1 * 64 + 64; rw [e1]; omega

/-- The output array after the region is `act A b` of the input arrays as the region found them. -/
theorem final (c : Dev nD) : (dat1 V c).arrAt 2 cfg1.N = act (A V c) (rowOf (B V c)) :=
  (dat1 V c).arrAt_eq_of_cover 2 (act (A V c) (rowOf (B V c))) (fun t _ => flushed V c t) (cover c)

end Cert.KernelIdeal.Region1

end
-- ==== Proof.Region2.lean ====
/-
  The second dense layer's pallas_call, read as a value: whatever the arrays hold when the region is entered, its
  one-column output array ends holding `lin H W` of the two input arrays. Point `t` of the grid of ten stages rows
  `10000 t … 10000 t + 9999` of `H` and the one row `W`, multiplies them, and writes entries `10000 t …` of the
  column back; the ten blocks tile the 100000 entries.
-/
import proofs.«182090_j36541581754948_1_alg».proof.Proof.Gen.KernelIdeal.Frame
import proofs.«182090_j36541581754948_1_alg».proof.Proof.Spec
import Idealize.ShloMosaic.Lib.Pipeline.Value

set_option maxRecDepth 16384

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload is the product of the row block with the transposed one-row weights. -/
theorem pay (a : Vec Ideal S10000x64 .f32) (w : Vec Ideal S1x64 .f32) :
    k2_pay1 a w = lin (M := 10000) (K := 64) (N := 1) a w := by
  unfold k2_pay1
  rw [shapeCast_self]
  exact kernel_lin none a w _ _

/-- The windows' block indices over the grid: the rows move with the point, the weights stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The arrays of the two input windows, at their literal types. -/
abbrev H (c : Dev nD) : FVec Ideal ⟨2, ![100000, 64]⟩ .f32 := V c main_v42
abbrev W (c : Dev nD) : FVec Ideal ⟨2, ![1, 64]⟩ .f32 := V c main_arg4

/-- Row `p` of point `t`'s block of the first input is row `10000 t + p` of its array. -/
theorem blk_H (c : Dev nD) (t : Fin cfg2.N) (p : Fin 10000) (k : Fin 64) (r : Fin 100000) (hr : r.val = t.val * 10000 + p.val) :
    (iblk2 V c 0 t : Vec Ideal S10000x64 .f32) (ix2 p k) = H V c (ix2 r k) := by
  obtain ⟨e0, e1, -⟩ := idx t
  unfold iblk2
  rw [View.read_apply]
  show V c main_v42 _ = V c main_v42 _
  congr 1
  funext a
  apply Fin.ext
  match a with
  | ⟨0, _⟩ => show win2_0.index t 0 * 10000 + 1 * p.val = r.val; rw [e0, hr]; omega
  | ⟨1, _⟩ => show win2_0.index t 1 * 64 + 1 * k.val = k.val; rw [e1]; omega

/-- Every point's block of the second input is the whole one-row array. -/
theorem blk_W (c : Dev nD) (t : Fin cfg2.N) (q : Fin 1) (k : Fin 64) :
    (iblk2 V c 1 t : Vec Ideal S1x64 .f32) (ix2 q k) = W V c (ix2 q k) := by
  obtain ⟨-, -, e0, e1, -⟩ := idx t
  unfold iblk2
  rw [View.read_apply]
  show V c main_arg4 _ = V c main_arg4 _
  congr 1
  funext a
  apply Fin.ext
  match a with
  | ⟨0, _⟩ => show win2_1.index t 0 * 1 + 1 * q.val = q.val; rw [e0]; omega
  | ⟨1, _⟩ => show win2_1.index t 1 * 64 + 1 * k.val = k.val; rw [e1]; omega

/-- Entry `(p, q)` of point `t`'s output block sits at row `10000 t + p` of the output column. -/
theorem emb_out (t : Fin cfg2.N) (p : Fin 10000) (q : Fin 1) (r : Fin 100000) (hr : r.val = t.val * 10000 + p.val) :
    ((cfg2.win 2).blk t).view.emb (ix2 p q) = (ix2 r q : (⟨2, ![100000, 1]⟩ : Shape).Idx) := by
  obtain ⟨-, -, -, -, e0, e1⟩ := idx t
  funext a
  apply Fin.ext
  match a with
  | ⟨0, _⟩ => show win2_2.index t 0 * 10000 + 1 * p.val = r.val; rw [e0, hr]; omega
  | ⟨1, _⟩ => show win2_2.index t 1 * 1 + 1 * q.val = q.val; rw [e1]; omega

/-- What point `t` writes back is block `t` of `lin H W`. -/
theorem flushed (c : Dev nD) (t : Fin cfg2.N) :
    (dat2 V c).flushed 2 t = ((cfg2.win 2).blk t).view.read (Elt Ideal) (lin (H V c) (W V c)) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  rw [pay]
  funext j
  obtain ⟨p, q, rfl⟩ : ∃ (p : Fin 10000) (q : Fin 1), j = ix2 p q := ⟨j 0, j 1, eq_ix2 j⟩
  have ht : t.val < 10 := lt_of_lt_of_eq t.isLt N_2
  have hp : p.val < 10000 := p.isLt
  show lin (M := 10000) (K := 64) (N := 1) (iblk2 V c 0 t) (iblk2 V c 1 t) (ix2 p q) = lin (H V c) (W V c) (((cfg2.win 2).blk t).view.emb (ix2 p q))
  rw [emb_out t p q ⟨t.val * 10000 + p.val, by omega⟩ rfl, lin_apply, lin_apply]
  refine Finset.sum_congr rfl fun k _ => ?_
  rw [blk_H V c t p k ⟨t.val * 10000 + p.val, by omega⟩ rfl, blk_W V c t q k]

/-- The ten blocks tile the output column. -/
theorem cover (c : Dev nD) (i : ((cfg2.win 2).arr.view.loc (c.tc : Thread nD τ)).2.ty.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : (i 0).val / 10000 < cfg2.N := lt_of_lt_of_eq (show (i 0).val / 10000 < 10 by omega) N_2.symm
  obtain ⟨t, ht⟩ : ∃ t : Fin cfg2.N, t.val = (i 0).val / 10000 := ⟨⟨_, hN⟩, rfl⟩
  refine ⟨t, flush2_2 t, ?_⟩
  show i ∈ ((View.whole main_v43).slice (win2_2.rect t)).set
  rw [View.set_slice_whole, Rect.mem_set_unit]
  obtain ⟨-, -, -, -, e0, e1⟩ := idx t
  intro a
  match a with
  | ⟨0, _⟩ => show win2_2.index t 0 * 10000 ≤ (i 0).val ∧ (i 0).val < win2_2.index t 0 * 10000 + 10000; rw [e0, ht]; omega
  | ⟨1, _⟩ => show win2_2.index t 1 * 1 ≤ (i 1).val ∧ (i 1).val < win2_2.index t 1 * 1 + 1; rw [e1]; omega

/-- The output column after the region is `lin H W` of the input arrays as the region found them. -/
theorem final (c : Dev nD) : (dat2 V c).arrAt 2 cfg2.N = lin (H V c) (W V c) :=
  (dat2 V c).arrAt_eq_of_cover 2 (lin (H V c) (W V c)) (fun t _ => flushed V c t) (cover c)

end Cert.KernelIdeal.Region2

end
-- ==== Proof.Chain.lean ====
/-
  The host side of the graph network that both programs share, as functions of arrays.

  From the edge list: the source and target node of every edge, the self loops appended (`srcIdx`, `dstIdx`);
  an index wrapped once when negative (`wrap`); each node's in-degree by a scatter-add of ones, its inverse square
  root gathered at both ends of every edge and multiplied (`norm`). A layer's aggregation gathers the rows of the
  transformed features at the sources, scales each by its edge's coefficient and scatter-adds them at the targets
  (`agg64` for 64 columns; `agg1` for one column, with the last bias added and the column flattened).
-/
import proofs.«182090_j36541581754948_1_alg».proof.Proof.Gen.ReferenceIdeal
import proofs.«182090_j36541581754948_1_alg».proof.Proof.Spec

noncomputable section

namespace Cert.Gcn.Chain

open Cert.ReferenceIdeal Cert.ReferenceIdeal.Gen Cert.Gcn Idealize.ShloMosaic

variable {F : FTy → Type} [FloatOps F]

/-- The edges' source nodes, the self loops appended. -/
def srcIdx (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' target nodes, the self loops appended. -/
def dstIdx (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node index, the node count added once when it is negative, as a column of index vectors. -/
def wrap (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- Each edge's coefficient: the inverse square roots of the in-degrees of its two ends, multiplied. -/
def norm (src dst : IVec S1700000 32) : FVec F S1700000 .f32 :=
  mulf (Host.gather gather_S100000_S1700000x1_S1700000_n_0_n_n_0_1_1 (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))) (wrap src))
    (Host.gather gather_S100000_S1700000x1_S1700000_n_0_n_n_0_1_1 (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32)))) (wrap dst))

/-- The first layer's aggregation: rows gathered at the sources, scaled by the edge coefficients, added at the targets. -/
def agg64 (h : FVec F S100000x64 .f32) (src dst : IVec S1700000 32) (nrm : FVec F S1700000 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst)
    (mulf (Host.gather gather_S100000x64_S1700000x1_S1700000x64_1_0_n_n_0_1_164 h (wrap src)) (broadcastInDim S1700000x64 ![0, 1] bcast_S1700000x1_S1700000x64_0_1 (broadcastInDim S1700000x1 ![0] bcast_S1700000_S1700000x1_0 nrm)))

/-- The second layer's aggregation of the one column, the last bias added, the column flattened. -/
def agg1 (h : FVec F S100000x1 .f32) (src dst : IVec S1700000 32) (nrm : FVec F S1700000 .f32) (b2 : FVec F S1 .f32) : FVec F S100000 .f32 :=
  shapeCast _ (addf (Host.scatterAdd scatter_S100000x1_S1700000x1_S1700000x1_1_0_0_1 (broadcastInDim S100000x1 ![] bcast_S_S100000x1 (constant S_ .f32 0x00000000#32)) (broadcastInDim S1700000x1 ![0] bcast_S1700000_S1700000x1_0 dst)
      (mulf (Host.gather gather_S100000x1_S1700000x1_S1700000x1_1_0_n_n_0_1_11 h (wrap src)) (broadcastInDim S1700000x1 ![0] bcast_S1700000_S1700000x1_0 nrm)))
    (broadcastInDim S100000x1 ![0, 1] bcast_S1x1_S100000x1_0_1 (broadcastInDim S1x1 ![1] bcast_S1_S1x1_1 b2))) shapeCasts_S100000x1_S100000

/-- The whole network as one function of the argument arrays over the extended reals: the first dense layer, its
    aggregation, bias and maximum with zero, the second dense layer, its aggregation and bias. -/
def gcn (x : FVec Ideal ⟨2, ![100000, 128]⟩ .f32) (ei : IVec S2x1600000 32) (w1 : FVec Ideal ⟨2, ![64, 128]⟩ .f32)
    (b1 : FVec Ideal ⟨1, ![64]⟩ .f32) (w2 : FVec Ideal ⟨2, ![1, 64]⟩ .f32) (b2 : FVec Ideal S1 .f32) : FVec Ideal S100000 .f32 :=
  agg1 (lin (act (agg64 (lin x w1) (srcIdx ei) (dstIdx ei) (norm (srcIdx ei) (dstIdx ei))) b1) w2)
    (srcIdx ei) (dstIdx ei) (norm (srcIdx ei) (dstIdx ei)) b2

end Cert.Gcn.Chain

end
-- ==== Proof.Stretches.lean ====
/-
  The three stretches of host operations of the kernel's program, each read as the shared chain applied to the
  buffers it finds: the first computes the edge indices and coefficients from the edge list, the second aggregates
  the first layer's output and lays the first bias out as one row, the third aggregates the second layer's output
  and adds the last bias. A buffer no operation of a stretch writes is left as found.
-/
import proofs.«182090_j36541581754948_1_alg».proof.Proof.Gen.KernelIdeal.Frame
import proofs.«182090_j36541581754948_1_alg».proof.Proof.Chain
import Idealize.ShloMosaic.Lib.StableHlo.Run

set_option maxRecDepth 16384

noncomputable section

namespace Cert.KernelIdeal.Stretches

open Cert.KernelIdeal Cert.KernelIdeal.Gen Cert.Gcn Cert.Gcn.Chain
open Idealize.ShloMosaic Idealize.ShloMosaic.TcCoe Idealize.SL.Sem Idealize.ShloMosaic.StableHlo

variable (W : Valuation τ sig (Elt Ideal))

/-- A buffer that no operation of the list writes holds after them what it held before. -/
macro "not_written " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The first stretch -/

theorem s0_src : StableHlo.after (hostOps0 (F := Ideal)) W (Proc.devRef .tc main_v3) = srcIdx (W (Proc.devRef .tc main_arg1)) := by
  after_results; rfl

theorem s0_dst : StableHlo.after (hostOps0 (F := Ideal)) W (Proc.devRef .tc main_v6) = dstIdx (W (Proc.devRef .tc main_arg1)) := by
  after_results; rfl

set_option maxHeartbeats 8000000 in
theorem s0_norm : StableHlo.after (hostOps0 (F := Ideal)) W (Proc.devRef .tc main_v26)
    = norm (F := Ideal) (srcIdx (W (Proc.devRef .tc main_arg1))) (dstIdx (W (Proc.devRef .tc main_arg1))) := by
  after_results_simp
  try after_results
  rfl

theorem s0_arg0 : StableHlo.after (hostOps0 (F := Ideal)) W (Proc.devRef .tc main_arg0) = W (Proc.devRef .tc main_arg0) := by not_written hostOps0
theorem s0_arg2 : StableHlo.after (hostOps0 (F := Ideal)) W (Proc.devRef .tc main_arg2) = W (Proc.devRef .tc main_arg2) := by not_written hostOps0
theorem s0_arg3 : StableHlo.after (hostOps0 (F := Ideal)) W (Proc.devRef .tc main_arg3) = W (Proc.devRef .tc main_arg3) := by not_written hostOps0
theorem s0_arg4 : StableHlo.after (hostOps0 (F := Ideal)) W (Proc.devRef .tc main_arg4) = W (Proc.devRef .tc main_arg4) := by not_written hostOps0
theorem s0_arg5 : StableHlo.after (hostOps0 (F := Ideal)) W (Proc.devRef .tc main_arg5) = W (Proc.devRef .tc main_arg5) := by not_written hostOps0

/-! ## The second stretch -/

set_option maxHeartbeats 8000000 in
theorem s1_agg : StableHlo.after (hostOps1 (F := Ideal)) W (Proc.devRef .tc main_v40)
    = agg64 (F := Ideal) (W (Proc.devRef .tc main_v27)) (W (Proc.devRef .tc main_v3)) (W (Proc.devRef .tc main_v6)) (W (Proc.devRef .tc main_v26)) := by
  after_results_simp
  try after_results
  rfl

theorem s1_bias : StableHlo.after (hostOps1 (F := Ideal)) W (Proc.devRef .tc main_v41)
    = shapeCast S1x64 (W (Proc.devRef .tc main_arg3) : FVec Ideal S64 .f32) shapeCasts_S64_S1x64 := by
  after_results; rfl

theorem s1_v3 : StableHlo.after (hostOps1 (F := Ideal)) W (Proc.devRef .tc main_v3) = W (Proc.devRef .tc main_v3) := by not_written hostOps1
theorem s1_v6 : StableHlo.after (hostOps1 (F := Ideal)) W (Proc.devRef .tc main_v6) = W (Proc.devRef .tc main_v6) := by not_written hostOps1
theorem s1_v26 : StableHlo.after (hostOps1 (F := Ideal)) W (Proc.devRef .tc main_v26) = W (Proc.devRef .tc main_v26) := by not_written hostOps1
theorem s1_arg4 : StableHlo.after (hostOps1 (F := Ideal)) W (Proc.devRef .tc main_arg4) = W (Proc.devRef .tc main_arg4) := by not_written hostOps1
theorem s1_arg5 : StableHlo.after (hostOps1 (F := Ideal)) W (Proc.devRef .tc main_arg5) = W (Proc.devRef .tc main_arg5) := by not_written hostOps1

/-! ## The third stretch -/

set_option maxHeartbeats 8000000 in
theorem s3_out : StableHlo.after (hostOps3 (F := Ideal)) W (Proc.devRef .tc main_v59)
    = agg1 (F := Ideal) (W (Proc.devRef .tc main_v43)) (W (Proc.devRef .tc main_v3)) (W (Proc.devRef .tc main_v6)) (W (Proc.devRef .tc main_v26)) (W (Proc.devRef .tc main_arg5)) := by
  after_results_simp
  try after_results
  rfl

end Cert.KernelIdeal.Stretches

end
-- ==== Proof.KernelValue.lean ====
/-
  The kernel program's result array as the network's function of the argument arrays: the fold of @main's six
  segments is walked from the launch memory to the return. Each host stretch is the shared chain applied to what it
  finds, each region leaves its dense layer (or the bias and maximum) of its input arrays in its output array, and a
  buffer that a segment does not write passes through it unchanged.
-/
import proofs.«182090_j36541581754948_1_alg».proof.Proof.Gen.KernelIdeal.Frame
import proofs.«182090_j36541581754948_1_alg».proof.Proof.Region0
import proofs.«182090_j36541581754948_1_alg».proof.Proof.Region1
import proofs.«182090_j36541581754948_1_alg».proof.Proof.Region2
import proofs.«182090_j36541581754948_1_alg».proof.Proof.Stretches
import proofs.«182090_j36541581754948_1_alg».proof.Proof.Chain

set_option maxRecDepth 16384

noncomputable section

namespace Cert.KernelIdeal.KernelValue

open Cert.KernelIdeal Cert.KernelIdeal.Gen Cert.Gcn Cert.Gcn.Chain
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The argument arrays at their literal types. -/
abbrev ax : FVec Ideal ⟨2, ![100000, 128]⟩ .f32 := m ((c : Thread nD τ).loc main_arg0)
abbrev aei : IVec S2x1600000 32 := m ((c : Thread nD τ).loc main_arg1)
abbrev aw1 : FVec Ideal ⟨2, ![64, 128]⟩ .f32 := m ((c : Thread nD τ).loc main_arg2)
abbrev ab1 : FVec Ideal ⟨1, ![64]⟩ .f32 := m ((c : Thread nD τ).loc main_arg3)
abbrev aw2 : FVec Ideal ⟨2, ![1, 64]⟩ .f32 := m ((c : Thread nD τ).loc main_arg4)
abbrev ab2 : FVec Ideal S1 .f32 := m ((c : Thread nD τ).loc main_arg5)

/-- The edge indices and coefficients, from the edge list. -/
abbrev src : IVec Cert.ReferenceIdeal.S1700000 32 := srcIdx (aei m c)
abbrev dst : IVec Cert.ReferenceIdeal.S1700000 32 := dstIdx (aei m c)
abbrev nrm : FVec Ideal Cert.ReferenceIdeal.S1700000 .f32 := norm (F := Ideal) (src m c) (dst m c)

/-- A vector laid out as one row, read back as a vector. -/
theorem rowOf_shapeCast (b : FVec Ideal S64 .f32) (h : S64.ShapeCasts S1x64) :
    Region1.rowOf (shapeCast S1x64 b h) = b := by
  funext j
  show shapeCast S1x64 b h (ix2 (0 : Fin 1) (j 0)) = b j
  refine (shapeCast_addUnit_apply ![64] b h _).trans (congrArg b (funext fun a => ?_))
  match a with
  | ⟨0, _⟩ => rfl

/-! ## After the first stretch -/

theorem w1_v3 : W1 m ρ c (Proc.devRef .tc main_v3) = src m c := Stretches.s0_src (W0 m ρ c)
theorem w1_v6 : W1 m ρ c (Proc.devRef .tc main_v6) = dst m c := Stretches.s0_dst (W0 m ρ c)
theorem w1_v26 : W1 m ρ c (Proc.devRef .tc main_v26) = nrm m c := Stretches.s0_norm (W0 m ρ c)
theorem w1_arg0 : W1 m ρ c (Proc.devRef .tc main_arg0) = ax m c := Stretches.s0_arg0 (W0 m ρ c)
theorem w1_arg2 : W1 m ρ c (Proc.devRef .tc main_arg2) = aw1 m c := Stretches.s0_arg2 (W0 m ρ c)
theorem w1_arg3 : W1 m ρ c (Proc.devRef .tc main_arg3) = ab1 m c := Stretches.s0_arg3 (W0 m ρ c)
theorem w1_arg4 : W1 m ρ c (Proc.devRef .tc main_arg4) = aw2 m c := Stretches.s0_arg4 (W0 m ρ c)
theorem w1_arg5 : W1 m ρ c (Proc.devRef .tc main_arg5) = ab2 m c := Stretches.s0_arg5 (W0 m ρ c)

/-! ## After the first dense layer's region -/

theorem w2_v27 : W2 m ρ c (Proc.devRef .tc main_v27) = lin (ax m c) (aw1 m c) := by
  refine (W2_arr m ρ c 2).trans ((Region0.final (V1 m ρ) c).trans ?_)
  show lin (M := 100000) (K := 128) (N := 64) (W1 m ρ c (Proc.devRef .tc main_arg0)) (W1 m ρ c (Proc.devRef .tc main_arg2)) = _
  rw [w1_arg0, w1_arg2]

theorem w2_v3 : W2 m ρ c (Proc.devRef .tc main_v3) = src m c := (W2_of_ne m ρ c main_v3 (by decide)).trans (w1_v3 m ρ c)
theorem w2_v6 : W2 m ρ c (Proc.devRef .tc main_v6) = dst m c := (W2_of_ne m ρ c main_v6 (by decide)).trans (w1_v6 m ρ c)
theorem w2_v26 : W2 m ρ c (Proc.devRef .tc main_v26) = nrm m c := (W2_of_ne m ρ c main_v26 (by decide)).trans (w1_v26 m ρ c)
theorem w2_arg3 : W2 m ρ c (Proc.devRef .tc main_arg3) = ab1 m c := (W2_of_ne m ρ c main_arg3 (by decide)).trans (w1_arg3 m ρ c)
theorem w2_arg4 : W2 m ρ c (Proc.devRef .tc main_arg4) = aw2 m c := (W2_of_ne m ρ c main_arg4 (by decide)).trans (w1_arg4 m ρ c)
theorem w2_arg5 : W2 m ρ c (Proc.devRef .tc main_arg5) = ab2 m c := (W2_of_ne m ρ c main_arg5 (by decide)).trans (w1_arg5 m ρ c)

/-! ## After the second stretch -/

theorem w3_v40 : W3 m ρ c (Proc.devRef .tc main_v40) = agg64 (lin (ax m c) (aw1 m c)) (src m c) (dst m c) (nrm m c) := by
  refine (Stretches.s1_agg (W2 m ρ c)).trans ?_
  rw [w2_v27, w2_v3, w2_v6, w2_v26]

theorem w3_v41 : W3 m ρ c (Proc.devRef .tc main_v41) = shapeCast S1x64 (ab1 m c) shapeCasts_S64_S1x64 := by
  refine (Stretches.s1_bias (W2 m ρ c)).trans ?_
  rw [w2_arg3]

theorem w3_v3 : W3 m ρ c (Proc.devRef .tc main_v3) = src m c := (Stretches.s1_v3 (W2 m ρ c)).trans (w2_v3 m ρ c)
theorem w3_v6 : W3 m ρ c (Proc.devRef .tc main_v6) = dst m c := (Stretches.s1_v6 (W2 m ρ c)).trans (w2_v6 m ρ c)
theorem w3_v26 : W3 m ρ c (Proc.devRef .tc main_v26) = nrm m c := (Stretches.s1_v26 (W2 m ρ c)).trans (w2_v26 m ρ c)
theorem w3_arg4 : W3 m ρ c (Proc.devRef .tc main_arg4) = aw2 m c := (Stretches.s1_arg4 (W2 m ρ c)).trans (w2_arg4 m ρ c)
theorem w3_arg5 : W3 m ρ c (Proc.devRef .tc main_arg5) = ab2 m c := (Stretches.s1_arg5 (W2 m ρ c)).trans (w2_arg5 m ρ c)

/-! ## After the bias-and-maximum region -/

/-- The first layer's output: aggregated, biased, cut at zero. -/
abbrev h1 : FVec Ideal ⟨2, ![100000, 64]⟩ .f32 :=
  act (agg64 (lin (ax m c) (aw1 m c)) (src m c) (dst m c) (nrm m c)) (ab1 m c)

theorem w4_v42 : W4 m ρ c (Proc.devRef .tc main_v42) = h1 m c := by
  refine (W4_arr m ρ c 2).trans ((Region1.final (V3 m ρ) c).trans ?_)
  show act (M := 100000) (N := 64) (W3 m ρ c (Proc.devRef .tc main_v40)) (Region1.rowOf (W3 m ρ c (Proc.devRef .tc main_v41))) = _
  rw [w3_v40, w3_v41, rowOf_shapeCast]

theorem w4_v3 : W4 m ρ c (Proc.devRef .tc main_v3) = src m c := (W4_of_ne m ρ c main_v3 (by decide)).trans (w3_v3 m ρ c)
theorem w4_v6 : W4 m ρ c (Proc.devRef .tc main_v6) = dst m c := (W4_of_ne m ρ c main_v6 (by decide)).trans (w3_v6 m ρ c)
theorem w4_v26 : W4 m ρ c (Proc.devRef .tc main_v26) = nrm m c := (W4_of_ne m ρ c main_v26 (by decide)).trans (w3_v26 m ρ c)
theorem w4_arg4 : W4 m ρ c (Proc.devRef .tc main_arg4) = aw2 m c := (W4_of_ne m ρ c main_arg4 (by decide)).trans (w3_arg4 m ρ c)
theorem w4_arg5 : W4 m ρ c (Proc.devRef .tc main_arg5) = ab2 m c := (W4_of_ne m ρ c main_arg5 (by decide)).trans (w3_arg5 m ρ c)

/-! ## After the second dense layer's region -/

theorem w5_v43 : W5 m ρ c (Proc.devRef .tc main_v43) = lin (h1 m c) (aw2 m c) := by
  refine (W5_arr m ρ c 2).trans ((Region2.final (V4 m ρ) c).trans ?_)
  show lin (M := 100000) (K := 64) (N := 1) (W4 m ρ c (Proc.devRef .tc main_v42)) (W4 m ρ c (Proc.devRef .tc main_arg4)) = _
  rw [w4_v42, w4_arg4]

theorem w5_v3 : W5 m ρ c (Proc.devRef .tc main_v3) = src m c := (W5_of_ne m ρ c main_v3 (by decide)).trans (w4_v3 m ρ c)
theorem w5_v6 : W5 m ρ c (Proc.devRef .tc main_v6) = dst m c := (W5_of_ne m ρ c main_v6 (by decide)).trans (w4_v6 m ρ c)
theorem w5_v26 : W5 m ρ c (Proc.devRef .tc main_v26) = nrm m c := (W5_of_ne m ρ c main_v26 (by decide)).trans (w4_v26 m ρ c)
theorem w5_arg5 : W5 m ρ c (Proc.devRef .tc main_arg5) = ab2 m c := (W5_of_ne m ρ c main_arg5 (by decide)).trans (w4_arg5 m ρ c)

/-! ## At the return -/

/-- The network's function of this program's argument arrays, at the result buffer's type. -/
abbrev result_term : Buf (Elt Ideal) ((c.tc : Thread nD τ).loc main_v59) :=
  gcn (ax m c) (aei m c) (aw1 m c) (ab1 m c) (aw2 m c) (ab2 m c)

/-- The result array ends at the network's function of the argument arrays. -/
theorem result : W6 m ρ c (Proc.devRef .tc main_v59) = result_term m c := by
  refine (Stretches.s3_out (W5 m ρ c)).trans ?_
  rw [w5_v43, w5_v3, w5_v6, w5_v26, w5_arg5]
  rfl

end Cert.KernelIdeal.KernelValue

end
-- ==== Proof.RefValue.lean ====
/-
  The reference's result as the shared host chain around the two dense layers: its two `dot_general`s with a
  transposed right operand are `lin`, its bias-add followed by the maximum with zero is `act`, and everything
  else — the edge indices, the edge coefficients, the two gather / scale / scatter-add aggregations — is the chain.
-/
import proofs.«182090_j36541581754948_1_alg».proof.Proof.Gen.ReferenceIdeal.Run
import proofs.«182090_j36541581754948_1_alg».proof.Proof.Spec
import proofs.«182090_j36541581754948_1_alg».proof.Proof.Chain

noncomputable section

namespace Cert.ReferenceIdeal.RefValue

open Cert.ReferenceIdeal Cert.ReferenceIdeal.Gen Cert.Gcn Cert.Gcn.Chain
open Idealize.ShloMosaic Idealize.ShloMosaic.TcCoe Idealize.SL.Sem

/-- The first layer's `dot_general` is `lin`. -/
theorem dot1 (x : FVec Ideal S100000x128 .f32) (w : FVec Ideal S64x128 .f32) :
    Host.dotGeneral dot_S100000x128_S128x64_S100000x64_1_0_0_1_n_n none x (transpose S128x64 [1, 0] w transposes_S64x128_S128x64_1_0)
      = lin (M := 100000) (K := 128) (N := 64) x w :=
  host_lin none x w _

/-- The second layer's `dot_general` is `lin`. -/
theorem dot2 (h : FVec Ideal S100000x64 .f32) (w : FVec Ideal S1x64 .f32) :
    Host.dotGeneral dot_S100000x64_S64x1_S100000x1_1_0_0_1_n_n none h (transpose S64x1 [1, 0] w transposes_S1x64_S64x1_1_0)
      = lin (M := 100000) (K := 64) (N := 1) h w :=
  host_lin none h w _

/-- The bias-add and the maximum with zero are `act`. -/
theorem relu1 (a : FVec Ideal S100000x64 .f32) (b : FVec Ideal S64 .f32) :
    maximumf (addf a (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = act (M := 100000) (N := 64) a b :=
  host_act a b _ _ _

set_option maxRecDepth 8192 in
/-- The reference run's composed term is the network's function of the arguments. -/
theorem res_eq (m : (ℓ : Loc nD τ sig) → Buf (Elt Ideal) ℓ) (c : Dev nD) :
    Value.res_main_v78 m c = gcn (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold gcn
  rw [← dot1, ← relu1, ← dot2]
  rfl

end Cert.ReferenceIdeal.RefValue

end
-- ==== Proof.lean ====
/-
  A two-layer graph convolution: `out = Â · relu(Â · (x W1ᵀ) + b1) W2ᵀ + b2`, where `Â` gathers a node's features at
  every edge's source, scales them by the edge's coefficient (the inverse square roots of the in-degrees of the edge's
  two ends, self loops included) and adds them at the edge's target.

  The kernel program computes the two dense products and the bias-and-maximum step in three pallas_calls over a grid
  of ten row blocks, the operands narrowed to bf16 before the products; the reference computes them on the host. On
  the extended reals a change of float format is the identity and a product accumulated into zeros is the plain sum
  over the contracted axis, which does not depend on how the rows are tiled: both dense layers are `lin`, the
  bias-and-maximum step is `act` on both sides (Proof/Spec.lean). The index arithmetic, the degrees, the gathers and
  the scatter-adds are the same host operations in both programs and are carried as one chain of functions
  (Proof/Chain.lean), never opened. So both result arrays are `gcn` of the argument arrays: the reference's by its
  run read back (Proof/RefValue.lean), the kernel's by its run's fold walked segment by segment
  (Proof/KernelRun.lean, Proof/Stretches.lean, Proof/Region0.lean … Region2.lean, Proof/KernelValue.lean).
  No law that needs finiteness is used, so the precondition is never opened.
-/
import proofs.«182090_j36541581754948_1_alg».proof.Defs
import proofs.«182090_j36541581754948_1_alg».proof.Proof.Gen.Kernel
import proofs.«182090_j36541581754948_1_alg».proof.Proof.Gen.Kernel.Frame
import proofs.«182090_j36541581754948_1_alg».proof.Proof.Gen.KernelIdeal
import proofs.«182090_j36541581754948_1_alg».proof.Proof.Gen.KernelIdeal.Frame
import proofs.«182090_j36541581754948_1_alg».proof.Proof.Gen.ReferenceIdeal
import proofs.«182090_j36541581754948_1_alg».proof.Proof.Gen.ReferenceIdeal.Run
import proofs.«182090_j36541581754948_1_alg».proof.Proof.Gen.Pre_finite_inputs
import proofs.«182090_j36541581754948_1_alg».proof.Proof.KernelRun
import proofs.«182090_j36541581754948_1_alg».proof.Proof.KernelValue
import proofs.«182090_j36541581754948_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's function of the (agreeing) argument arrays in their result arrays. -/
theorem algebraic : Cert.algebraic_KernelIdeal_ReferenceIdeal := by
  intro m ρ m' ρ' _ hagree
  refine ⟨fun c => Cert.KernelIdeal.KernelValue.result_term m c, ?_, ?_⟩
  · exact (θ_run Cert.KernelIdeal.defs _ _).mono
      (fun _ h c => ⟨(h c).1.trans (Cert.KernelIdeal.KernelValue.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq]
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
